-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16x2048x64 : Shape := ⟨3, ![16, 2048, 64]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S16x2048x64 : S_.BroadcastsInDim S16x2048x64 (![] : Fin 0 → Fin S16x2048x64.rank)
  reducesTo_S16x2048x64_S_d0_1_2 : S16x2048x64.ReducesTo [0, 1, 2] S_

variable [Facts]

def fn {F : FTy → Type} [FloatOps F] (main_arg0 : FVec F S16x2048x2048 .f32) (main_arg1 : FVec F S16x2048x64 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  main_v8
-- ==== Kernel.lean ====
abbrev S16x2048x2048 : Shape := ⟨3, ![16, 2048, 2048]⟩
abbrev S16x2048x64 : Shape := ⟨3, ![16, 2048, 64]⟩
abbrev S1x512x2048 : Shape := ⟨3, ![1, 512, 2048]⟩
abbrev S1x2048x64 : Shape := ⟨3, ![1, 2048, 64]⟩
abbrev S1x512x64 : Shape := ⟨3, ![1, 512, 64]⟩
abbrev S512x2048 : Shape := ⟨2, ![512, 2048]⟩
abbrev S2048x64 : Shape := ⟨2, ![2048, 64]⟩
abbrev S512x64 : Shape := ⟨2, ![512, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S16x2048x64, .f32⟩
  | .hbm, ⟨2, _⟩ => ⟨S16x2048x64, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x512x64, .f32⟩
  | .local _ .vmem, ⟨5, _⟩ => ⟨S1x512x64, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S16x2048x64.size a
  hwx0_2 : ∀ i : grid0.Coords, EltTy.bits .f32 = 32 ∨ (Rect.block (s := S16x2048x64) S1x512x64.size (cc0_transform_2 i) (hinb0_2 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S16x2048x64 : Shape := ⟨3, ![16, 2048, 64]⟩

abbrev nBuf : Space → Nat
  | .hbm => 3
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x64, .f32⟩
  | .hbm, ⟨2, _⟩ => ⟨S16x2048x64, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.BatchProduct.lean ====
/-
  The batched matrix product on the extended reals, entry by entry.

  For a left operand `a` of extents [16, 2048, 2048] and a right operand `b` of extents [16, 2048, 64] the product
  has extents [16, 2048, 64] and its entry at (β, r, n) is the sum over the shared axis

      ∑_{k < 2048}  a[β, r, k] · b[β, k, n].

  Each batch β is an independent 2048 × 2048 by 2048 × 64 product; nothing is summed across batches. Only the
  commutative monoid structure of the extended reals under + is used to state it, so the entries may be infinite.
-/
import Idealize.ShloMosaic.PureOps.Ideal
import Idealize.ShloMosaic.Lib.ValueIdx

noncomputable section

open Idealize.ShloMosaic Idealize.ShloMosaic.ValueIdx

namespace Cert.BatchProduct

/-- The batched product of `a` and `b`: entry (β, r, n) is the sum over k of a[β, r, k] · b[β, k, n]. -/
def batchProduct (a : (⟨3, ![16, 2048, 2048]⟩ : Shape).Idx → EReal) (b : (⟨3, ![16, 2048, 64]⟩ : Shape).Idx → EReal) :
    (⟨3, ![16, 2048, 64]⟩ : Shape).Idx → EReal :=
  fun i => ∑ k : Fin 2048, a (ix3 (i 0) (i 1) k) * b (ix3 (i 0) k (i 2))

/-- The product read at explicit coordinates. -/
theorem batchProduct_apply (a : (⟨3, ![16, 2048, 2048]⟩ : Shape).Idx → EReal) (b : (⟨3, ![16, 2048, 64]⟩ : Shape).Idx → EReal)
    (β : Fin 16) (r : Fin 2048) (n : Fin 64) :
    batchProduct a b (ix3 β r n) = ∑ k : Fin 2048, a (ix3 β r k) * b (ix3 β k n) := rfl

end Cert.BatchProduct

end
-- ==== Proof.ReferenceProduct.lean ====
/-
  The reference's one operation is the batched matrix product.

  The reference contracts axis 2 of its left operand with axis 1 of its right operand and batches over axis 0 of both,
  so its entry at (β, r, n) is the sum over k of a[β, r, k] · b[β, k, n]: exactly `batchProduct a b` at that entry. The
  two operand indices the sum is taken at are the coordinate triples (β, r, k) and (β, k, n).
-/
import proofs.«181142_j89421219103268_1_alg».proof.Proof.Gen.ReferenceIdeal.Read
import proofs.«181142_j89421219103268_1_alg».proof.Proof.BatchProduct

noncomputable section

open Idealize.ShloMosaic Idealize.ShloMosaic.ValueIdx

namespace Cert.ReferenceIdeal.RefValue

open Cert.ReferenceIdeal Cert.ReferenceIdeal.Read Cert.BatchProduct

/-- The left operand is read at (β, r, k). -/
theorem left_index (i : S16x2048x64.Idx) (k : Fin 2048) : lidx_main_v0 i k = ix3 (i 0) (i 1) k :=
  funext fun a => Fin.ext (by match a with | ⟨0, _⟩ => rfl | ⟨1, _⟩ => rfl | ⟨2, _⟩ => rfl)

/-- The right operand is read at (β, k, n). -/
theorem right_index (i : S16x2048x64.Idx) (k : Fin 2048) : ridx_main_v0 i k = ix3 (i 0) k (i 2) :=
  funext fun a => Fin.ext (by match a with | ⟨0, _⟩ => rfl | ⟨1, _⟩ => rfl | ⟨2, _⟩ => rfl)

/-- The reference's result, as a function of its two arguments, is their batched product. -/
theorem reference_is_batchProduct (a : (⟨S16x2048x2048, .f32⟩ : BufTy).Contents (Elt Ideal))
    (b : (⟨S16x2048x64, .f32⟩ : BufTy).Contents (Elt Ideal)) :
    val_main_v0 (F := Ideal) a b = batchProduct a b := by
  funext i
  rw [val_main_v0_apply]
  simp only [left_index, right_index]
  rfl

end Cert.ReferenceIdeal.RefValue

end
-- ==== Proof.TileProduct.lean ====
/-
  What one grid point computes: a 512 × 2048 by 2048 × 64 matrix product.

  The body loads a [1, 512, 2048] block `x0` and a [1, 2048, 64] block `x1`, drops their unit axes, narrows both to
  bf16 (on the extended reals a change of float format is the identity), multiplies them into a zero accumulator and
  puts the unit axis back. So the stored [1, 512, 64] block has, at (0, p, q), the sum over k of
  x0[0, p, k] · x1[0, k, q]: the accumulator contributes 0 + · and the contraction's one axis is the shared axis k.
-/
import proofs.«181142_j89421219103268_1_alg».proof.Proof.Gen.KernelIdeal.Skeleton
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileProduct

open Cert.KernelIdeal Cert.KernelIdeal.Gen

/-! ## The operand indices of the tile's product, axis by axis -/

/-- The left operand's row is the result's row. -/
theorem lhs_row (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

/-- The left operand's column is the contraction position. -/
theorem lhs_col (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q

/-- The right operand's row is the contraction position. -/
theorem rhs_row (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q

/-- The right operand's column is the result's column. -/
theorem rhs_col (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## The tile's product at an entry -/

/-- A product into the zero accumulator, read at (p, q): the sum over the shared axis. -/
theorem matmul_zero_apply (l : FVec Ideal S512x2048 .bf16) (r : FVec Ideal S2048x64 .bf16) (p : Fin 512) (q : Fin 64) :
    matmul dot_S512x2048_S2048x64_S512x64_1_0_0_1_n_n none l r (constant (F := Ideal) S512x64 .f32 0x00000000#32) (ix2 p q)
      = ∑ k : Fin 2048, l (ix2 p k) * r (ix2 k q) := by
  show FloatOps.matmul dot_S512x2048_S2048x64_S512x64_1_0_0_1_n_n none l r (constant (F := Ideal) S512x64 .f32 0x00000000#32) (ix2 p q) = _
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k := funext fun a => Fin.ext (by
    match a with
    | ⟨0, _⟩ => exact lhs_row _ _
    | ⟨1, _⟩ => exact (lhs_col _ _).trans hk)
  have er : dot_S512x2048_S2048x64_S512x64_1_0_0_1_n_n.rhsIdx (ix2 p q) ((contrEquiv1 dot_S512x2048_S2048x64_S512x64_1_0_0_1_n_n 2048 rfl rfl).symm k) = ix2 k q := funext fun a => Fin.ext (by
    match a with
    | ⟨0, _⟩ => exact (rhs_row _ _).trans hk
    | ⟨1, _⟩ => exact rhs_col _ _)
  rw [el, er]

/-- What the body stores, at (0, p, q), from the two loaded blocks. -/
theorem stored_apply (x0 : Vec Ideal S1x512x2048 .f32) (x1 : Vec Ideal S1x2048x64 .f32) (p : Fin 512) (q : Fin 64) :
    k0_pay1 (F := Ideal) x0 x1 (ix3 (0 : Fin 1) p q) = ∑ k : Fin 2048, x0 (ix3 (0 : Fin 1) p k) * x1 (ix3 (0 : Fin 1) k q) := by
  unfold k0_pay1
  refine (shapeCast_ab_1ab_apply _ _ (0 : Fin 1) p q).trans ?_
  refine (matmul_zero_apply _ _ p q).trans ?_
  refine Finset.sum_congr rfl fun k _ => ?_
  rw [truncf_apply, truncf_apply, shapeCast_1ab_ab_apply, shapeCast_1ab_ab_apply]

end Cert.KernelIdeal.TileProduct

end
-- ==== Proof.RowBlocks.lean ====
/-
  From the grid's blocks to the whole result.

  The grid has 16 × 4 points. Point (β, μ) reads rows μ·512 … μ·512 + 511 of batch β of the left operand, all 2048
  columns of them, and the whole of batch β of the right operand; it writes rows μ·512 … μ·512 + 511 of batch β of the
  result. By the tile's product, what it writes at row p, column q of its block is the sum over k of
  a[β, μ·512 + p, k] · b[β, k, q], which is the batched product of the whole operands at (β, μ·512 + p, q): every
  written block is a block of ONE function of the argument arrays. The 64 blocks are pairwise different and together
  they are the whole [16, 2048, 64] result: row r of batch β lies in the block of point (β, r / 512). So the result
  array ends holding the batched product.
-/
import proofs.«181142_j89421219103268_1_alg».proof.Proof.Gen.KernelIdeal.Value
import proofs.«181142_j89421219103268_1_alg».proof.Proof.BatchProduct
import proofs.«181142_j89421219103268_1_alg».proof.Proof.TileProduct
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.RowBlocks

open Cert.KernelIdeal Cert.KernelIdeal.Gen Cert.KernelIdeal.Value Cert.BatchProduct

variable (m : (ℓ : Loc nD τ sig) → Buf (Elt Ideal) ℓ) (ρ : Dev nD → PrngReg)

/-- The body's loads and its store start at the origin of their blocks. -/
theorem origin : (![0, 0, 0] : Fin 3 → Nat) = fun _ => 0 := funext fun a => by fin_cases a <;> rfl

/-! ## One point's block is a block of the batched product -/

/-- If the loaded left block holds, in its row `j 1`, row `i 1` of batch `i 0` of `a`, and the loaded right block
    holds, in its column `j 2`, column `i 2` of batch `i 0` of `b`, then the stored block at `j` is the batched
    product of `a` and `b` at `i`. -/
theorem tile_is_product (a : S16x2048x2048.Idx → EReal) (b : S16x2048x64.Idx → EReal)
    (x0 : Vec Ideal S1x512x2048 .f32) (x1 : Vec Ideal S1x2048x64 .f32) (i : S16x2048x64.Idx) (j : S1x512x64.Idx)
    (h0 : ∀ k : Fin 2048, x0 (ix3 (0 : Fin 1) (j 1) k) = a (ix3 (i 0) (i 1) k))
    (h1 : ∀ k : Fin 2048, x1 (ix3 (0 : Fin 1) k (j 2)) = b (ix3 (i 0) k (i 2))) :
    k0_pay1 (F := Ideal) x0 x1 j = batchProduct a b i := by
  have hj : j = @ix3 1 512 64 (0 : Fin 1) (j 1) (j 2) := funext fun d => by
    match d with
    | ⟨0, _⟩ => exact Fin.ext (by have h : (j 0).val < 1 := (j 0).isLt; show (j 0).val = 0; omega)
    | ⟨1, _⟩ => rfl
    | ⟨2, _⟩ => rfl
  refine (congrArg (k0_pay1 (F := Ideal) x0 x1) hj).trans ?_
  refine (TileProduct.stored_apply x0 x1 (j 1) (j 2)).trans ?_
  show _ = ∑ k : Fin 2048, a (ix3 (i 0) (i 1) k) * b (ix3 (i 0) k (i 2))
  exact Finset.sum_congr rfl fun k _ => congrArg₂ (· * ·) (h0 k) (h1 k)

/-! ## The printed index maps over the grid -/

/-- At every point the left window's block shares the result block's batch and row-block indices and takes all
    columns; the right window's block shares the batch index and is the whole batch; the result block's indices
    stay inside the 16 × 4 × 1 blocks of the result. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every (batch, row-block) pair is some point's result block. -/
theorem index_onto : ∀ (β : Fin 16) (μ : Fin 4), ∃ t : Fin cfg0.N, win0_2.index t = ![β.val, μ.val, 0] :=
  (by decide +kernel : ∀ (β : Fin 16) (μ : Fin 4), ∃ t : Fin grid0.N, win0_2.index t = ![β.val, μ.val, 0])

/-- What point `t` writes back is block `t` of the batched product of the argument arrays. -/
theorem flushed_eq (c : Dev nD) (t : Fin cfg0.N) :
    (dats m 0 c).flushed 2 t
      = ((cfg0.win 2).blk t).view.read (Elt Ideal) (batchProduct (V m c main_arg0) (V m c main_arg1)) := by
  rw [Value.flushed2]
  unfold out0_2
  rw [View.canon_unit_zero origin]
  simp only [View.ld_unit_zero (S := S1x512x2048) origin, View.ld_unit_zero (S := S1x2048x64) origin]
  obtain ⟨e00, e01, e02, e10, e11, e12, -, -, e22⟩ := index_facts t
  funext j
  show k0_pay1 (F := Ideal) (iblk m c 0 t) (iblk m c 1 t) j
    = batchProduct (V m c main_arg0) (V m c main_arg1) (((cfg0.win 2).blk t).view.emb j)
  refine tile_is_product (V m c main_arg0) (V m c main_arg1) (iblk m c 0 t) (iblk m c 1 t)
    (((cfg0.win 2).blk t).view.emb j) j (fun k => ?_) (fun k => ?_)
  · show V m c main_arg0 (((cfg0.win 0).blk t).view.emb (ix3 (0 : Fin 1) (j 1) k))
      = V m c main_arg0 (ix3 ((((cfg0.win 2).blk t).view.emb j) 0) ((((cfg0.win 2).blk t).view.emb j) 1) k)
    refine congrArg (V m c main_arg0) (funext fun d => Fin.ext ?_)
    match d with
    | ⟨0, _⟩ =>
      show win0_0.index t (0 : Fin 3) * 1 + 1 * 0 = win0_2.index t (0 : Fin 3) * 1 + 1 * (j 0).val
      have hj : (j 0).val < 1 := (j 0).isLt
      omega
    | ⟨1, _⟩ =>
      show win0_0.index t (1 : Fin 3) * 512 + 1 * (j 1).val = win0_2.index t (1 : Fin 3) * 512 + 1 * (j 1).val
      omega
    | ⟨2, _⟩ =>
      show win0_0.index t (2 : Fin 3) * 2048 + 1 * k.val = k.val
      omega
  · show V m c main_arg1 (((cfg0.win 1).blk t).view.emb (ix3 (0 : Fin 1) k (j 2)))
      = V m c main_arg1 (ix3 ((((cfg0.win 2).blk t).view.emb j) 0) k ((((cfg0.win 2).blk t).view.emb j) 2))
    refine congrArg (V m c main_arg1) (funext fun d => Fin.ext ?_)
    match d with
    | ⟨0, _⟩ =>
      show win0_1.index t (0 : Fin 3) * 1 + 1 * 0 = win0_2.index t (0 : Fin 3) * 1 + 1 * (j 0).val
      have hj : (j 0).val < 1 := (j 0).isLt
      omega
    | ⟨1, _⟩ =>
      show win0_1.index t (1 : Fin 3) * 2048 + 1 * k.val = k.val
      omega
    | ⟨2, _⟩ =>
      show win0_1.index t (2 : Fin 3) * 64 + 1 * (j 2).val = win0_2.index t (2 : Fin 3) * 64 + 1 * (j 2).val
      omega

/-! ## The blocks are the whole result -/

/-- An index of the result is in point `t`'s block iff each coordinate is in the block's range on its axis. -/
theorem mem_block (t : Fin cfg0.N) (i : S16x2048x64.Idx) :
    i ∈ ((cfg0.win 2).blk t).view.set ↔ ∀ d : Fin 3, win0_2.index t d * S1x512x64.size d ≤ (i d).val
      ∧ (i d).val < win0_2.index t d * S1x512x64.size d + S1x512x64.size d := by
  show i ∈ ((View.whole main_v0).slice (win0_2.rect t)).set ↔ _
  rw [View.set_slice_whole, Rect.mem_set_unit]
  exact Iff.rfl

/-- Every index of the result is in some writing point's block: row r of batch β in that of point (β, r / 512). -/
theorem cover (i : S16x2048x64.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 64 := (i 2).isLt
  obtain ⟨t, ht⟩ := index_onto ⟨(i 0).val, h0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro d
  match d with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 64 ≤ (i 2).val ∧ (i 2).val < win0_2.index t (2 : Fin 3) * 64 + 64
    omega

/-- After the run the result array holds the batched product of the argument arrays. -/
theorem result_array (c : Dev nD) :
    (dats m 0 c).arrAt 2 cfg0.N
      = batchProduct (m ((c : Thread nD τ).loc main_arg0)) (m ((c : Thread nD τ).loc main_arg1)) :=
  (dats m 0 c).arrAt_eq_of_cover 2 (batchProduct (V m c main_arg0) (V m c main_arg1))
    (fun t _ => flushed_eq m c t) cover

/-- The run, read: the result at the batched product of the arguments, the arguments unchanged. -/
theorem run : θ_run defs (onTc (τ := τ) (main (F := Ideal))) ⟨m, fun _ => 0, ρ⟩ fun r => ∀ c : Dev nD,
      r.2.mem ((c : Thread nD τ).loc main_v0)
        = batchProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Value.run_blocks m ρ)

end Cert.KernelIdeal.RowBlocks

end
-- ==== Proof.lean ====
/- A batched matrix product computed block by block equals the batched product computed at once.

   The kernel multiplies a[16, 2048, 2048] by b[16, 2048, 64] on a 16 × 4 grid: point (β, μ) takes rows
   μ·512 … μ·512 + 511 of batch β of `a` and the whole of batch β of `b`, narrows both to bf16, multiplies them into a
   zero accumulator and writes the 512 × 64 product as rows μ·512 … of batch β of the result. The reference contracts
   axis 2 of `a` with axis 1 of `b`, batching over axis 0. On the extended reals a change of float format is the
   identity and a product into a zero accumulator is the plain sum, so both compute, at (β, r, n),

       ∑_{k < 2048}  a[β, r, k] · b[β, k, n]

   (Proof/BatchProduct.lean). The reference's one operation is that sum index by index (Proof/ReferenceProduct.lean);
   one grid point's stored block is that sum restricted to its rows (Proof/TileProduct.lean); the 64 blocks are blocks
   of one function of the arguments and together are the whole result (Proof/RowBlocks.lean). No law beyond reading
   both sides as the same sum is needed, so the inputs' finiteness is never used. The idealization rewrote no operation,
   so `preserves` is trivial; the three frames are the programs' runs. -/
import proofs.«181142_j89421219103268_1_alg».proof.Defs
import proofs.«181142_j89421219103268_1_alg».proof.Proof.Gen.Kernel
import proofs.«181142_j89421219103268_1_alg».proof.Proof.Gen.Kernel.Skeleton
import proofs.«181142_j89421219103268_1_alg».proof.Proof.Gen.Kernel.Launch
import proofs.«181142_j89421219103268_1_alg».proof.Proof.Gen.Kernel.Points
import proofs.«181142_j89421219103268_1_alg».proof.Proof.Gen.Kernel.Frame
import proofs.«181142_j89421219103268_1_alg».proof.Proof.Gen.KernelIdeal
import proofs.«181142_j89421219103268_1_alg».proof.Proof.Gen.KernelIdeal.Skeleton
import proofs.«181142_j89421219103268_1_alg».proof.Proof.Gen.KernelIdeal.Launch
import proofs.«181142_j89421219103268_1_alg».proof.Proof.Gen.KernelIdeal.Points
import proofs.«181142_j89421219103268_1_alg».proof.Proof.Gen.KernelIdeal.Frame
import proofs.«181142_j89421219103268_1_alg».proof.Proof.Gen.ReferenceIdeal
import proofs.«181142_j89421219103268_1_alg».proof.Proof.Gen.Pre_finite_inputs
import proofs.«181142_j89421219103268_1_alg».proof.Proof.Gen.KernelIdeal.Value
import proofs.«181142_j89421219103268_1_alg».proof.Proof.Gen.ReferenceIdeal.Run
import proofs.«181142_j89421219103268_1_alg».proof.Proof.Gen.ReferenceIdeal.Read
import proofs.«181142_j89421219103268_1_alg».proof.Proof.BatchProduct
import proofs.«181142_j89421219103268_1_alg».proof.Proof.ReferenceProduct
import proofs.«181142_j89421219103268_1_alg».proof.Proof.TileProduct
import proofs.«181142_j89421219103268_1_alg».proof.Proof.RowBlocks
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on the arguments both programs end with the batched product of the arguments in their
    result: the kernel block by block over its grid, the reference by its one contraction. -/
theorem algebraic : Cert.algebraic_KernelIdeal_ReferenceIdeal := by
  intro m ρ m' ρ' _ hagree
  refine ⟨fun c => Cert.BatchProduct.batchProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.reference_is_batchProduct,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
